-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2048 : Shape := ⟨2, ![131072, 2048]⟩
abbrev S20x2048 : Shape := ⟨2, ![20, 2048]⟩
abbrev S20 : Shape := ⟨1, ![20]⟩
abbrev S_ : Shape := ⟨0, ![]⟩

class Facts : Prop where
  bcast_S_S131072x2048 : S_.BroadcastsInDim S131072x2048 (![] : Fin 0 → Fin S131072x2048.rank)
  reducesTo_S131072x2048_S_d0_1 : S131072x2048.ReducesTo [0, 1] S_
  h_S_ : 0 < S_.numel
  bcast_S_S20x2048 : S_.BroadcastsInDim S20x2048 (![] : Fin 0 → Fin S20x2048.rank)
  reducesTo_S20x2048_S_d0_1 : S20x2048.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg4 : FVec F S20 .f32) (main_v13 : IVec S_ 1) (main_v16 : IVec S20x2048 1) : IVec S_ 1 :=
  let main_c_5 : IVec S_ 1 := constantI S_ 1 1#1
  let main_v17 : IVec S_ 1 := (fun x v => Host.reduce IntOp.andi x v reducesTo_S20x2048_S_d0_1 h_S_) main_v16 main_c_5
  let main_v18 : IVec S_ 1 := andi main_v13 main_v17
  let main_v19 : FVec F S20 .f32 := Host.absf main_arg4
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  main_v23

def fn {F : FTy → Type} [FloatOps F] (main_arg0 : FVec F S131072x2048 .f32) (main_arg1 : FVec F S20x2048 .f32) (main_arg2 : FVec F S20 .f32) (main_arg3 : FVec F S20x2048 .f32) (main_arg4 : FVec F S20 .f32) : IVec S_ 1 :=
  let main_v0 : FVec F S131072x2048 .f32 := Host.absf main_arg0
  let main_cst : FVec F S_ .f32 := constant S_ .f32 0x7F800000#32
  let main_v1 : FVec F S131072x2048 .f32 := broadcastInDim S131072x2048 ![] bcast_S_S131072x2048 main_cst
  let main_v2 : IVec S131072x2048 1 := cmpf .olt main_v0 main_v1
  let main_c : IVec S_ 1 := constantI S_ 1 1#1
  let main_v3 : IVec S_ 1 := (fun x v => Host.reduce IntOp.andi x v reducesTo_S131072x2048_S_d0_1 h_S_) main_v2 main_c
  let main_v4 : FVec F S20x2048 .f32 := Host.absf main_arg1
  let main_cst_0 : FVec F S_ .f32 := constant S_ .f32 0x7F800000#32
  let main_v5 : FVec F S20x2048 .f32 := broadcastInDim S20x2048 ![] bcast_S_S20x2048 main_cst_0
  let main_v6 : IVec S20x2048 1 := cmpf .olt main_v4 main_v5
  let main_c_1 : IVec S_ 1 := constantI S_ 1 1#1
  let main_v7 : IVec S_ 1 := (fun x v => Host.reduce IntOp.andi x v reducesTo_S20x2048_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x2048 .f32 := Host.absf main_arg3
  let main_cst_4 : FVec F S_ .f32 := constant S_ .f32 0x7F800000#32
  let main_v15 : FVec F S20x2048 .f32 := broadcastInDim S20x2048 ![] bcast_S_S20x2048 main_cst_4
  let main_v16 : IVec S20x2048 1 := cmpf .olt main_v14 main_v15
  fn_part1 (F := F) main_arg4 main_v13 main_v16
-- ==== Kernel.lean ====
abbrev S131072x2048 : Shape := ⟨2, ![131072, 2048]⟩
abbrev S20x2048 : Shape := ⟨2, ![20, 2048]⟩
abbrev S20 : Shape := ⟨1, ![20]⟩
abbrev S131072x20 : Shape := ⟨2, ![131072, 20]⟩
abbrev S1024x2048 : Shape := ⟨2, ![1024, 2048]⟩
abbrev S1024x20 : Shape := ⟨2, ![1024, 20]⟩
abbrev S2048x20 : Shape := ⟨2, ![2048, 20]⟩
abbrev S1x20 : Shape := ⟨2, ![1, 20]⟩
abbrev S_ : Shape := ⟨0, ![]⟩
abbrev S131072x80 : Shape := ⟨2, ![131072, 80]⟩

abbrev nBuf : Space → Nat
  | .hbm => 9
  | .vmem => 10
  | .smem => 0
  | _ => 0

abbrev bufTy : (tb : Table) → Fin (tcTables nBuf tb) → BufTy
  | .hbm, ⟨0, _⟩ => ⟨S131072x2048, .f32⟩
  | .hbm, ⟨1, _⟩ => ⟨S20x2048, .f32⟩
  | .hbm, ⟨2, _⟩ => ⟨S20, .f32⟩
  | .hbm, ⟨3, _⟩ => ⟨S20x2048, .f32⟩
  | .hbm, ⟨4, _⟩ => ⟨S20, .f32⟩
  | .hbm, ⟨5, _⟩ => ⟨S131072x20, .f32⟩
  | .hbm, ⟨6, _⟩ => ⟨S131072x20, .f32⟩
  | .hbm, ⟨7, _⟩ => ⟨S_, .f32⟩
  | .hbm, ⟨8, _⟩ => ⟨S131072x80, .f32⟩
  | .local _ .vmem, ⟨0, _⟩ => ⟨S1024x2048, .f32⟩
  | .local _ .vmem, ⟨1, _⟩ => ⟨S1024x2048, .f32⟩
  | .local _ .vmem, ⟨2, _⟩ => ⟨S20x2048, .f32⟩
  | .local _ .vmem, ⟨3, _⟩ => ⟨S20, .f32⟩
  | .local _ .vmem, ⟨4, _⟩ => ⟨S20x2048, .f32⟩
  | .local _ .vmem, ⟨5, _⟩ => ⟨S20, .f32⟩
  | .local _ .vmem, ⟨6, _⟩ => ⟨S1024x20, .f32⟩
  | .local _ .vmem, ⟨7, _⟩ => ⟨S1024x20, .f32⟩
  | .local _ .vmem, ⟨8, _⟩ => ⟨S1024x20, .f32⟩
  | .local _ .vmem, ⟨9, _⟩ => ⟨S1024x20, .f32⟩
  | _, _ => ⟨S131072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S20x2048_S20x2048_0_0 : ∀ a, (![0, 0] : Fin 2 → Nat) a + S20x2048.size a ≤ S20x2048.size a
  h_S20x2048 : 0 < S20x2048.numel
  transposes_S20x2048_p1_0_S2048x20 : S20x2048.Transposes [1, 0] S2048x20
  inb_S20_S20_0 : ∀ a, (![0] : Fin 1 → Nat) a + S20.size a ≤ S20.size a
  h_S20 : 0 < S20.numel
  shapeCasts_S20_S1x20 : S20.ShapeCasts S1x20
  broadcasts_S1x20_S1024x20 : S1x20.Broadcasts S1024x20
  inb_S1024x20_S1024x20_0_0 : ∀ a, (![0, 0] : Fin 2 → Nat) a + S1024x20.size a ≤ S1024x20.size a
  h_S1024x20 : 0 < S1024x20.numel
  bcast_S_S131072x80 : S_.BroadcastsInDim S131072x80 (![] : Fin 0 → Fin S131072x80.rank)
  dot_S1024x2048_S2048x20_S1024x20_1_0_0_1_n_n_wf : DotDims.WF S1024x2048 S2048x20 S1024x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S131072x2048.size a
  hwx0_0 : ∀ i : grid0.Coords, EltTy.bits .f32 = 32 ∨ (Rect.block (s := S131072x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x2048.size a ≤ S20x2048.size a
  hwx0_1 : ∀ i : grid0.Coords, EltTy.bits .f32 = 32 ∨ (Rect.block (s := S20x2048) S20x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20.size a ≤ S20.size a
  hwx0_2 : ∀ i : grid0.Coords, EltTy.bits .f32 = 32 ∨ (Rect.block (s := S20) S20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x2048.size a ≤ S20x2048.size a
  hwx0_3 : ∀ i : grid0.Coords, EltTy.bits .f32 = 32 ∨ (Rect.block (s := S20x2048) S20x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20.size a ≤ S20.size a
  hwx0_4 : ∀ i : grid0.Coords, EltTy.bits .f32 = 32 ∨ (Rect.block (s := S20) S20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x20.size a ≤ S131072x20.size a
  hwx0_5 : ∀ i : grid0.Coords, EltTy.bits .f32 = 32 ∨ (Rect.block (s := S131072x20) S1024x20.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x20.size a ≤ S131072x20.size a
  hwx0_6 : ∀ i : grid0.Coords, EltTy.bits .f32 = 32 ∨ (Rect.block (s := S131072x20) S1024x20.size (cc0_transform_6 i) (hinb0_6 i)).WholeWords (EltTy.packing .f32)

variable [Facts₀]

def dot_S1024x2048_S2048x20_S1024x20_1_0_0_1_n_n : DotDims S1024x2048 S2048x20 S1024x20 where
  lhsContracting := [1]
  rhsContracting := [0]
  lhsNonContracting := [0]
  rhsNonContracting := [1]
  lhsBatch := []
  rhsBatch := []
  wf := dot_S1024x2048_S2048x20_S1024x20_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S20x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1024x20.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1024x20.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x2048 : Shape := ⟨2, ![131072, 2048]⟩
abbrev S20x2048 : Shape := ⟨2, ![20, 2048]⟩
abbrev S20 : Shape := ⟨1, ![20]⟩
abbrev S131072x20 : Shape := ⟨2, ![131072, 20]⟩
abbrev S1x20 : Shape := ⟨2, ![1, 20]⟩
abbrev S_ : Shape := ⟨0, ![]⟩
abbrev S131072x80 : Shape := ⟨2, ![131072, 80]⟩

abbrev nBuf : Space → Nat
  | .hbm => 15
  | .vmem => 0
  | .smem => 0
  | _ => 0

abbrev bufTy : (tb : Table) → Fin (tcTables nBuf tb) → BufTy
  | .hbm, ⟨0, _⟩ => ⟨S131072x2048, .f32⟩
  | .hbm, ⟨1, _⟩ => ⟨S20x2048, .f32⟩
  | .hbm, ⟨2, _⟩ => ⟨S20, .f32⟩
  | .hbm, ⟨3, _⟩ => ⟨S20x2048, .f32⟩
  | .hbm, ⟨4, _⟩ => ⟨S20, .f32⟩
  | .hbm, ⟨5, _⟩ => ⟨S131072x20, .f32⟩
  | .hbm, ⟨6, _⟩ => ⟨S1x20, .f32⟩
  | .hbm, ⟨7, _⟩ => ⟨S131072x20, .f32⟩
  | .hbm, ⟨8, _⟩ => ⟨S131072x20, .f32⟩
  | .hbm, ⟨9, _⟩ => ⟨S131072x20, .f32⟩
  | .hbm, ⟨10, _⟩ => ⟨S1x20, .f32⟩
  | .hbm, ⟨11, _⟩ => ⟨S131072x20, .f32⟩
  | .hbm, ⟨12, _⟩ => ⟨S131072x20, .f32⟩
  | .hbm, ⟨13, _⟩ => ⟨S_, .f32⟩
  | .hbm, ⟨14, _⟩ => ⟨S131072x80, .f32⟩
  | _, _ => ⟨S131072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S20_S1x20_1 : S20.BroadcastsInDim S1x20 (![1] : Fin 1 → Fin S1x20.rank)
  bcast_S1x20_S131072x20_0_1 : S1x20.BroadcastsInDim S131072x20 (![0, 1] : Fin 2 → Fin S131072x20.rank)
  bcast_S_S131072x80 : S_.BroadcastsInDim S131072x80 (![] : Fin 0 → Fin S131072x80.rank)
  dot_S131072x2048_S20x2048_S131072x20_1_1_0_0_n_n_wf : DotDims.WF S131072x2048 S20x2048 S131072x20 [1] [1] [0] [0] [] []

variable [Facts₀]

def dot_S131072x2048_S20x2048_S131072x20_1_1_0_0_n_n : DotDims S131072x2048 S20x2048 S131072x20 where
  lhsContracting := [1]
  rhsContracting := [1]
  lhsNonContracting := [0]
  rhsNonContracting := [0]
  lhsBatch := []
  rhsBatch := []
  wf := dot_S131072x2048_S20x2048_S131072x20_1_1_0_0_n_n_wf

class Facts : Prop extends Facts₀ where

variable [Facts]
-- ==== Proof.LinearHead.lean ====
/-
  One linear head, as a function of whole arrays over the extended reals.

  For a feature matrix `x` (131072 rows of 2048 features), a weight matrix `w` (20 classes by 2048 features)
  and a bias `b` (20 entries), the head's value at row `n` and class `k` is
      (∑ d, x[n, d] · w[k, d]) + b[k].
  Both programs of this certificate compute two such heads (class scores and detection weights) from the
  same `x`; this file fixes that one function, over literal shapes, so that each side is compared with it.
-/
import Idealize.ShloMosaic.Lib.ValueIdx
import Idealize.ShloMosaic.PureOps.Ideal

noncomputable section

namespace Cert.LinearHead

open Idealize.ShloMosaic Idealize.ShloMosaic.ValueIdx
open scoped BigOperators

/-- The head of `x` against weights `w` and bias `b`: at `(n, k)` the inner product of row `n` of `x` with
    row `k` of `w`, plus `b k`. -/
def head (x : FVec Ideal ⟨2, ![131072, 2048]⟩ .f32) (w : FVec Ideal ⟨2, ![20, 2048]⟩ .f32)
    (b : FVec Ideal ⟨1, ![20]⟩ .f32) : FVec Ideal ⟨2, ![131072, 20]⟩ .f32 :=
  fun i => (∑ d : Fin 2048, x (ix2 (i 0) d) * w (ix2 (i 1) d)) + b (ix1 (i 1))

/-- The head read at explicit coordinates. -/
theorem head_apply (x : FVec Ideal ⟨2, ![131072, 2048]⟩ .f32) (w : FVec Ideal ⟨2, ![20, 2048]⟩ .f32)
    (b : FVec Ideal ⟨1, ![20]⟩ .f32) (n : Fin 131072) (k : Fin 20) :
    head x w b (ix2 n k) = (∑ d : Fin 2048, x (ix2 n d) * w (ix2 k d)) + b (ix1 k) := rfl

end Cert.LinearHead

end
-- ==== Proof.ReferenceHeads.lean ====
/-
  The reference's two results are linear heads of its arguments.

  The reference computes `dot_general` of `x` with a weight matrix, contracting the feature axis of both, and
  adds the bias broadcast along rows (first to a single row, then to all 131072 rows). Read at an index
  `(n, k)` this is `(∑ d, x[n, d] · w[k, d]) + b[k]`, which is `LinearHead.head` by definition once the
  operand indices the generated reading lemmas name are recognised as `(n, d)`, `(k, d)` and `k`.
-/
import proofs.«101826_j40389872451670_1_alg».proof.Proof.Gen.ReferenceIdeal.Read
import proofs.«101826_j40389872451670_1_alg».proof.Proof.LinearHead

noncomputable section

namespace Cert.ReferenceIdeal.Heads

open Cert.ReferenceIdeal Cert.ReferenceIdeal.Gen Cert.ReferenceIdeal.Read
open Idealize.ShloMosaic Idealize.ShloMosaic.ValueIdx Cert.LinearHead
open scoped BigOperators

/-- The left operand of the first product is read at row `n`, feature `d`. -/
theorem scores_lhs (i : S131072x20.Idx) (d : Fin 2048) : lidx_main_v0 i d = ix2 (i 0) d :=
  funext fun a => Fin.ext (by match a with | ⟨0, _⟩ => rfl | ⟨1, _⟩ => rfl)

/-- The right operand of the first product is read at class `k`, feature `d`. -/
theorem scores_rhs (i : S131072x20.Idx) (d : Fin 2048) : ridx_main_v0 i d = ix2 (i 1) d :=
  funext fun a => Fin.ext (by match a with | ⟨0, _⟩ => rfl | ⟨1, _⟩ => rfl)

/-- The first bias, after both broadcasts, is read at class `k`. -/
theorem scores_bias (i : S131072x20.Idx) : idx_main_v1 (idx_main_v2 i) = ix1 (i 1) :=
  funext fun a => Fin.ext (by match a with | ⟨0, _⟩ => rfl)

/-- The left operand of the second product is read at row `n`, feature `d`. -/
theorem weights_lhs (i : S131072x20.Idx) (d : Fin 2048) : lidx_main_v4 i d = ix2 (i 0) d :=
  funext fun a => Fin.ext (by match a with | ⟨0, _⟩ => rfl | ⟨1, _⟩ => rfl)

/-- The right operand of the second product is read at class `k`, feature `d`. -/
theorem weights_rhs (i : S131072x20.Idx) (d : Fin 2048) : ridx_main_v4 i d = ix2 (i 1) d :=
  funext fun a => Fin.ext (by match a with | ⟨0, _⟩ => rfl | ⟨1, _⟩ => rfl)

/-- The second bias, after both broadcasts, is read at class `k`. -/
theorem weights_bias (i : S131072x20.Idx) : idx_main_v5 (idx_main_v6 i) = ix1 (i 1) :=
  funext fun a => Fin.ext (by match a with | ⟨0, _⟩ => rfl)

/-- The reference's first result is the head of `x` against the class weights and class bias. -/
theorem scores_eq (x : (⟨S131072x2048, .f32⟩ : BufTy).Contents (Elt Ideal)) (w : (⟨S20x2048, .f32⟩ : BufTy).Contents (Elt Ideal))
    (b : (⟨S20, .f32⟩ : BufTy).Contents (Elt Ideal)) :
    val_main_v3 (F := Ideal) x w b = head x w b := by
  funext i
  rw [val_main_v3_apply, val_main_v0_apply, val_main_v2_apply, val_main_v1_apply]
  simp only [scores_lhs, scores_rhs, scores_bias]
  rfl

/-- The reference's second result is the head of `x` against the detection weights and detection bias. -/
theorem weights_eq (x : (⟨S131072x2048, .f32⟩ : BufTy).Contents (Elt Ideal)) (w : (⟨S20x2048, .f32⟩ : BufTy).Contents (Elt Ideal))
    (b : (⟨S20, .f32⟩ : BufTy).Contents (Elt Ideal)) :
    val_main_v7 (F := Ideal) x w b = head x w b := by
  funext i
  rw [val_main_v7_apply, val_main_v4_apply, val_main_v6_apply, val_main_v5_apply]
  simp only [weights_lhs, weights_rhs, weights_bias]
  rfl

end Cert.ReferenceIdeal.Heads

end
-- ==== Proof.BodyHeads.lean ====
/-
  What the kernel's body stores, read at an index of the block.

  At a grid point the body holds a block of 1024 rows of `x`, a whole weight matrix `w` (20 by 2048) and a whole
  bias `b`. It transposes `w` to 2048 by 20, multiplies the row block by it into a zero accumulator, and adds the
  bias laid out as one row and repeated over the 1024 rows. The narrowing of the operands to a shorter float
  format is the identity on the extended reals. So the stored value at row `p` of the block and class `q` is
      (∑ d, x[p, d] · w[q, d]) + b[q]:
  the matrix product's contraction runs over the feature axis of the block and the first axis of the transposed
  weights, and the transposed weights at `(d, q)` are the weights at `(q, d)`.
-/
import proofs.«101826_j40389872451670_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Heads

open Cert.KernelIdeal Cert.KernelIdeal.Gen
open Idealize.ShloMosaic Idealize.ShloMosaic.ValueIdx
open scoped BigOperators

/-! ## The matrix product's operand indices -/

/-- The left operand's row is the output's row. -/
theorem lhs_row (i : S1024x20.Idx) (q : dot_S1024x2048_S2048x20_S1024x20_1_0_0_1_n_n.contr.Idx) :
    (dot_S1024x2048_S2048x20_S1024x20_1_0_0_1_n_n.lhsIdx i q 0).val = (i 0).val := by
  unfold DotDims.lhsIdx
  rw [dif_neg (show ¬(0 : Fin S1024x2048.rank) ∈ dot_S1024x2048_S2048x20_S1024x20_1_0_0_1_n_n.lhsBatch by decide), dif_pos (show (0 : Fin S1024x2048.rank) ∈ dot_S1024x2048_S2048x20_S1024x20_1_0_0_1_n_n.lhsNonContracting by decide)]
  rfl

/-- The left operand's column is the contraction position. -/
theorem lhs_col (i : S1024x20.Idx) (q : dot_S1024x2048_S2048x20_S1024x20_1_0_0_1_n_n.contr.Idx) :
    (dot_S1024x2048_S2048x20_S1024x20_1_0_0_1_n_n.lhsIdx i q 1).val = (q ⟨0, by decide⟩).val :=
  dot_S1024x2048_S2048x20_S1024x20_1_0_0_1_n_n.lhsIdx_val_of_single rfl i q

/-- The right operand's row is the contraction position. -/
theorem rhs_row (i : S1024x20.Idx) (q : dot_S1024x2048_S2048x20_S1024x20_1_0_0_1_n_n.contr.Idx) :
    (dot_S1024x2048_S2048x20_S1024x20_1_0_0_1_n_n.rhsIdx i q 0).val = (q ⟨0, by decide⟩).val :=
  dot_S1024x2048_S2048x20_S1024x20_1_0_0_1_n_n.rhsIdx_val_of_single rfl i q

/-- The right operand's column is the output's column. -/
theorem rhs_col (i : S1024x20.Idx) (q : dot_S1024x2048_S2048x20_S1024x20_1_0_0_1_n_n.contr.Idx) :
    (dot_S1024x2048_S2048x20_S1024x20_1_0_0_1_n_n.rhsIdx i q 1).val = (i 1).val := by
  unfold DotDims.rhsIdx
  rw [dif_neg (show ¬(1 : Fin S2048x20.rank) ∈ dot_S1024x2048_S2048x20_S1024x20_1_0_0_1_n_n.rhsBatch by decide), dif_pos (show (1 : Fin S2048x20.rank) ∈ dot_S1024x2048_S2048x20_S1024x20_1_0_0_1_n_n.rhsNonContracting by decide)]
  rfl

/-- A 1024 by 2048 block times a 2048 by 20 matrix into a zero accumulator, at `(p, q)`: the plain sum of
    products over the 2048 contraction positions. -/
theorem product_apply (l : FVec Ideal S1024x2048 .bf16) (r : FVec Ideal S2048x20 .bf16) (p : Fin 1024) (q : Fin 20) :
    matmul (F := Ideal) dot_S1024x2048_S2048x20_S1024x20_1_0_0_1_n_n none l r (constant (F := Ideal) S1024x20 .f32 0x00000000#32) (ix2 p q)
      = ∑ d : Fin 2048, l (ix2 p d) * r (ix2 d q) := by
  simp only [matmul]
  rw [Ideal.matmul_constant_zero_apply, ← Equiv.sum_comp (contrEquiv1 dot_S1024x2048_S2048x20_S1024x20_1_0_0_1_n_n 2048 rfl rfl).symm]
  refine Finset.sum_congr rfl fun k _ => ?_
  have hk := contrEquiv1_symm_val dot_S1024x2048_S2048x20_S1024x20_1_0_0_1_n_n 2048 rfl rfl k
  have el : dot_S1024x2048_S2048x20_S1024x20_1_0_0_1_n_n.lhsIdx (ix2 p q) ((contrEquiv1 dot_S1024x2048_S2048x20_S1024x20_1_0_0_1_n_n 2048 rfl rfl).symm k) = ix2 p k := funext fun a => Fin.ext (by
    match a with
    | ⟨0, _⟩ => exact lhs_row _ _
    | ⟨1, _⟩ => exact (lhs_col _ _).trans hk)
  have er : dot_S1024x2048_S2048x20_S1024x20_1_0_0_1_n_n.rhsIdx (ix2 p q) ((contrEquiv1 dot_S1024x2048_S2048x20_S1024x20_1_0_0_1_n_n 2048 rfl rfl).symm k) = ix2 k q := funext fun a => Fin.ext (by
    match a with
    | ⟨0, _⟩ => exact (rhs_row _ _).trans hk
    | ⟨1, _⟩ => exact rhs_col _ _)
  rw [el, er]

/-! ## The two stored values -/

/-- The value stored for the class scores, at row `p` of the block and class `q`. -/
theorem scores_block_apply (x : Vec Ideal S1024x2048 .f32) (w : Vec Ideal S20x2048 .f32) (b : Vec Ideal S20 .f32)
    (p : Fin 1024) (q : Fin 20) :
    k0_pay2 (F := Ideal) x w b (ix2 p q) = (∑ d : Fin 2048, x (ix2 p d) * w (ix2 q d)) + b (ix1 q) := by
  unfold k0_pay2 k0_pay1
  rw [addf_apply, product_apply, broadcastTo_1b_ab_apply, shapeCast_a_1a_apply]
  congr 1
  refine Finset.sum_congr rfl fun d _ => ?_
  rw [truncf_apply, transpose_ix2_apply, truncf_apply]

/-- The value stored for the detection weights, at row `p` of the block and class `q`. -/
theorem weights_block_apply (x : Vec Ideal S1024x2048 .f32) (w : Vec Ideal S20x2048 .f32) (b : Vec Ideal S20 .f32)
    (p : Fin 1024) (q : Fin 20) :
    k0_pay3 (F := Ideal) x w b (ix2 p q) = (∑ d : Fin 2048, x (ix2 p d) * w (ix2 q d)) + b (ix1 q) := by
  unfold k0_pay3 k0_pay1
  rw [addf_apply, product_apply, broadcastTo_1b_ab_apply, shapeCast_a_1a_apply]
  congr 1
  refine Finset.sum_congr rfl fun d _ => ?_
  rw [truncf_apply, transpose_ix2_apply, truncf_apply]

/-- The same at any index of the block, by its two coordinates. -/
theorem scores_block_at (x : Vec Ideal S1024x2048 .f32) (w : Vec Ideal S20x2048 .f32) (b : Vec Ideal S20 .f32)
    (j : S1024x20.Idx) :
    k0_pay2 (F := Ideal) x w b j = (∑ d : Fin 2048, x (ix2 (j 0) d) * w (ix2 (j 1) d)) + b (ix1 (j 1)) :=
  (congrArg (k0_pay2 (F := Ideal) x w b) (eq_ix2 j)).trans (scores_block_apply x w b (j 0) (j 1))

/-- The same at any index of the block, by its two coordinates. -/
theorem weights_block_at (x : Vec Ideal S1024x2048 .f32) (w : Vec Ideal S20x2048 .f32) (b : Vec Ideal S20 .f32)
    (j : S1024x20.Idx) :
    k0_pay3 (F := Ideal) x w b j = (∑ d : Fin 2048, x (ix2 (j 0) d) * w (ix2 (j 1) d)) + b (ix1 (j 1)) :=
  (congrArg (k0_pay3 (F := Ideal) x w b) (eq_ix2 j)).trans (weights_block_apply x w b (j 0) (j 1))

end Cert.KernelIdeal.Heads

end
-- ==== Proof.KernelHeads.lean ====
/-
  The kernel's three results as whole arrays.

  The grid has 128 points. At point `t` the kernel is handed rows `1024·t … 1024·t + 1023` of `x`, and the whole
  of each weight matrix and bias (their block index never moves). It writes back, to rows `1024·t … 1024·t + 1023`
  of each result, the body's stored block. The stored value at row `p`, class `q` is the inner product of block
  row `p` with weight row `q` plus the bias at `q`, and block row `p` at point `t` is row `1024·t + p` of `x`:
  so what point `t` writes back is block `t` of the linear head of the whole arrays. The 128 blocks tile the
  131072 rows (row `r` lies in block `r / 1024`), so each result array ends as the head itself. The third
  result is written by the two host operations after the kernel: a zero scalar broadcast to 131072 by 80.
-/
import proofs.«101826_j40389872451670_1_alg».proof.Proof.Gen.KernelIdeal.Frame
import proofs.«101826_j40389872451670_1_alg».proof.Proof.BodyHeads
import proofs.«101826_j40389872451670_1_alg».proof.Proof.LinearHead
import Idealize.ShloMosaic.Lib.Pipeline.Value
import Idealize.ShloMosaic.Lib.StableHlo.Run
import Idealize.ShloMosaic.Lib.Tactic

set_option maxRecDepth 16384

noncomputable section

namespace Cert.KernelIdeal.Heads

open Cert.KernelIdeal Cert.KernelIdeal.Gen Cert.LinearHead
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## Whole-buffer accesses start at the origin -/

theorem origin2 : (![0, 0] : Fin 2 → Nat) = fun _ => 0 := funext fun a => by fin_cases a <;> rfl
theorem origin1 : (![0] : Fin 1 → Nat) = fun _ => 0 := funext fun a => by fin_cases a <;> rfl

/-! ## Which block each window holds at a point -/

/-- At point `t` the row block of `x` and of both results is block `t` (column block 0); the weights and biases
    are always at block 0. Decided over the 128 points. -/
theorem block_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as entries of the arrays -/

/-- Row `p` of the block of `x` at point `t` is row `1024·t + p` of `x`. -/
theorem x_block_apply (c : Dev nD) (t : Fin cfg0.N) (p : Fin 1024) (d : Fin 2048) (n : Fin 131072)
    (hn : n.val = t.val * 1024 + p.val) :
    (iblk m c 0 t : Vec Ideal S1024x2048 .f32) (ix2 p d) = (V m c main_arg0 : Vec Ideal S131072x2048 .f32) (ix2 n d) := by
  obtain ⟨e0, e1, -⟩ := block_at t
  show V m c main_arg0 (((cfg0.win 0).blk t).view.emb (ix2 p d)) = V m c main_arg0 (ix2 n d)
  congr 1
  funext a
  apply Fin.ext
  match a with
  | ⟨0, _⟩ => show win0_0.index t (0 : Fin 2) * 1024 + 1 * p.val = n.val; omega
  | ⟨1, _⟩ => show win0_0.index t (1 : Fin 2) * 2048 + 1 * d.val = d.val; omega

/-- The class weights' block is the whole matrix at every point. -/
theorem cls_w_block_apply (c : Dev nD) (t : Fin cfg0.N) (q : Fin 20) (d : Fin 2048) :
    (iblk m c 1 t : Vec Ideal S20x2048 .f32) (ix2 q d) = (V m c main_arg1 : Vec Ideal S20x2048 .f32) (ix2 q d) := by
  obtain ⟨-, -, e0, e1, -⟩ := block_at t
  show V m c main_arg1 (((cfg0.win 1).blk t).view.emb (ix2 q d)) = V m c main_arg1 (ix2 q d)
  congr 1
  funext a
  apply Fin.ext
  match a with
  | ⟨0, _⟩ => show win0_1.index t (0 : Fin 2) * 20 + 1 * q.val = q.val; omega
  | ⟨1, _⟩ => show win0_1.index t (1 : Fin 2) * 2048 + 1 * d.val = d.val; omega

/-- The class bias' block is the whole vector at every point. -/
theorem cls_b_block_apply (c : Dev nD) (t : Fin cfg0.N) (q : Fin 20) :
    (iblk m c 2 t : Vec Ideal S20 .f32) (ix1 q) = (V m c main_arg2 : Vec Ideal S20 .f32) (ix1 q) := by
  obtain ⟨-, -, -, -, e0, -⟩ := block_at t
  show V m c main_arg2 (((cfg0.win 2).blk t).view.emb (ix1 q)) = V m c main_arg2 (ix1 q)
  congr 1
  funext a
  apply Fin.ext
  match a with
  | ⟨0, _⟩ => show win0_2.index t (0 : Fin 1) * 20 + 1 * q.val = q.val; omega

/-! ## The class scores -/

/-- What point `t` writes back to the scores is block `t` of the head of the arrays as the kernel finds them. -/
theorem scores_flushed (c : Dev nD) (t : Fin cfg0.N) :
    (dats m 0 c).flushed 5 t = ((cfg0.win 5).blk t).view.read (Elt Ideal)
      (head (V m c main_arg0) (V m c main_arg1) (V m c main_arg2)) := by
  show (cfg0.win 5).cut (grid0.coords t) ((dats m 0 c).after 5 t) = _
  rw [after0_5]
  unfold out0_5
  rw [View.canon_unit_zero origin2]
  simp only [View.ld_unit_zero (S := S1024x2048) origin2, View.ld_unit_zero (S := S20x2048) origin2,
    View.ld_unit_zero (S := S20) origin1]
  obtain ⟨-, -, -, -, -, -, -, -, e0, e1, -⟩ := block_at t
  funext j
  show k0_pay2 (F := Ideal) (iblk m c 0 t) (iblk m c 1 t) (iblk m c 2 t) j
    = head (V m c main_arg0) (V m c main_arg1) (V m c main_arg2) (((cfg0.win 5).blk t).view.emb j)
  refine (scores_block_at (iblk m c 0 t) (iblk m c 1 t) (iblk m c 2 t) j).trans ?_
  have hj0 : (j 0).val < 1024 := (j 0).isLt
  have hj1 : (j 1).val < 20 := (j 1).isLt
  have hrow : ((((cfg0.win 5).blk t).view.emb j) 0).val = t.val * 1024 + (j 0).val := by
    show win0_5.index t (0 : Fin 2) * 1024 + 1 * (j 0).val = _; omega
  have hcol : ((((cfg0.win 5).blk t).view.emb j) 1).val = (j 1).val := by
    show win0_5.index t (1 : Fin 2) * 20 + 1 * (j 1).val = _; omega
  have hq : (((cfg0.win 5).blk t).view.emb j) 1 = j 1 := Fin.ext hcol
  unfold head
  congr 1
  · refine Finset.sum_congr rfl fun d _ => ?_
    congr 1
    · exact x_block_apply m c t (j 0) d ((((cfg0.win 5).blk t).view.emb j) 0) hrow
    · rw [hq]; exact cls_w_block_apply m c t (j 1) d
  · rw [hq]; exact cls_b_block_apply m c t (j 1)

/-- An index of the scores lies in point `t`'s block iff each coordinate lies in the block's range. -/
theorem mem_scores_block (t : Fin cfg0.N) (i : S131072x20.Idx) :
    i ∈ ((cfg0.win 5).blk t).view.set ↔ ∀ a : Fin 2, win0_5.index t a * S1024x20.size a ≤ (i a).val
      ∧ (i a).val < win0_5.index t a * S1024x20.size a + S1024x20.size a := by
  show i ∈ ((View.whole main_v0_0).slice (win0_5.rect t)).set ↔ _
  rw [View.set_slice_whole, Rect.mem_set_unit]
  exact Iff.rfl

/-- Row `r` of the scores is written back by point `r / 1024`: the 128 row blocks tile the array. -/
theorem scores_cover (i : S131072x20.Idx) :
    ∃ t : Fin cfg0.N, (cfg0.win 5).flush t = true ∧ i ∈ ((cfg0.win 5).blk t).view.set := by
  have hi0 : (i 0).val < 131072 := idx2_lt0 i
  have hi1 : (i 1).val < 20 := idx2_lt1 i
  have hN : cfg0.N = 128 := N_0
  let t : Fin cfg0.N := ⟨(i 0).val / 1024, by rw [hN]; omega⟩
  have ht : t.val = (i 0).val / 1024 := rfl
  obtain ⟨-, -, -, -, -, -, -, -, e0, e1, -⟩ := block_at t
  refine ⟨t, flush0_5 t, ?_⟩
  rw [mem_scores_block]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 20 ≤ (i 1).val ∧ (i 1).val < win0_5.index t (1 : Fin 2) * 20 + 20
    omega

/-- After the run the scores array is the head of `x` against the class weights and class bias. -/
theorem scores_final (c : Dev nD) :
    (dats m 0 c).arrAt 5 cfg0.N = head (V m c main_arg0) (V m c main_arg1) (V m c main_arg2) :=
  (dats m 0 c).arrAt_eq_of_cover 5 (head (V m c main_arg0) (V m c main_arg1) (V m c main_arg2))
    (fun t _ => scores_flushed m c t) scores_cover

/-! ## The detection weights -/

/-- The detection weights' block is the whole matrix at every point. -/
theorem det_w_block_apply (c : Dev nD) (t : Fin cfg0.N) (q : Fin 20) (d : Fin 2048) :
    (iblk m c 3 t : Vec Ideal S20x2048 .f32) (ix2 q d) = (V m c main_arg3 : Vec Ideal S20x2048 .f32) (ix2 q d) := by
  obtain ⟨-, -, -, -, -, e0, e1, -⟩ := block_at t
  show V m c main_arg3 (((cfg0.win 3).blk t).view.emb (ix2 q d)) = V m c main_arg3 (ix2 q d)
  congr 1
  funext a
  apply Fin.ext
  match a with
  | ⟨0, _⟩ => show win0_3.index t (0 : Fin 2) * 20 + 1 * q.val = q.val; omega
  | ⟨1, _⟩ => show win0_3.index t (1 : Fin 2) * 2048 + 1 * d.val = d.val; omega

/-- The detection bias' block is the whole vector at every point. -/
theorem det_b_block_apply (c : Dev nD) (t : Fin cfg0.N) (q : Fin 20) :
    (iblk m c 4 t : Vec Ideal S20 .f32) (ix1 q) = (V m c main_arg4 : Vec Ideal S20 .f32) (ix1 q) := by
  obtain ⟨-, -, -, -, -, -, -, e0, -⟩ := block_at t
  show V m c main_arg4 (((cfg0.win 4).blk t).view.emb (ix1 q)) = V m c main_arg4 (ix1 q)
  congr 1
  funext a
  apply Fin.ext
  match a with
  | ⟨0, _⟩ => show win0_4.index t (0 : Fin 1) * 20 + 1 * q.val = q.val; omega

/-- What point `t` writes back to the detection weights is block `t` of the head of the arrays as the kernel
    finds them. -/
theorem weights_flushed (c : Dev nD) (t : Fin cfg0.N) :
    (dats m 0 c).flushed 6 t = ((cfg0.win 6).blk t).view.read (Elt Ideal)
      (head (V m c main_arg0) (V m c main_arg3) (V m c main_arg4)) := by
  show (cfg0.win 6).cut (grid0.coords t) ((dats m 0 c).after 6 t) = _
  rw [after0_6]
  unfold out0_6
  rw [View.canon_unit_zero origin2]
  simp only [View.ld_unit_zero (S := S1024x2048) origin2, View.ld_unit_zero (S := S20x2048) origin2,
    View.ld_unit_zero (S := S20) origin1]
  obtain ⟨-, -, -, -, -, -, -, -, -, -, e0, e1⟩ := block_at t
  funext j
  show k0_pay3 (F := Ideal) (iblk m c 0 t) (iblk m c 3 t) (iblk m c 4 t) j
    = head (V m c main_arg0) (V m c main_arg3) (V m c main_arg4) (((cfg0.win 6).blk t).view.emb j)
  refine (weights_block_at (iblk m c 0 t) (iblk m c 3 t) (iblk m c 4 t) j).trans ?_
  have hj0 : (j 0).val < 1024 := (j 0).isLt
  have hj1 : (j 1).val < 20 := (j 1).isLt
  have hrow : ((((cfg0.win 6).blk t).view.emb j) 0).val = t.val * 1024 + (j 0).val := by
    show win0_6.index t (0 : Fin 2) * 1024 + 1 * (j 0).val = _; omega
  have hcol : ((((cfg0.win 6).blk t).view.emb j) 1).val = (j 1).val := by
    show win0_6.index t (1 : Fin 2) * 20 + 1 * (j 1).val = _; omega
  have hq : (((cfg0.win 6).blk t).view.emb j) 1 = j 1 := Fin.ext hcol
  unfold head
  congr 1
  · refine Finset.sum_congr rfl fun d _ => ?_
    congr 1
    · exact x_block_apply m c t (j 0) d ((((cfg0.win 6).blk t).view.emb j) 0) hrow
    · rw [hq]; exact det_w_block_apply m c t (j 1) d
  · rw [hq]; exact det_b_block_apply m c t (j 1)

/-- An index of the detection weights lies in point `t`'s block iff each coordinate lies in the block's range. -/
theorem mem_weights_block (t : Fin cfg0.N) (i : S131072x20.Idx) :
    i ∈ ((cfg0.win 6).blk t).view.set ↔ ∀ a : Fin 2, win0_6.index t a * S1024x20.size a ≤ (i a).val
      ∧ (i a).val < win0_6.index t a * S1024x20.size a + S1024x20.size a := by
  show i ∈ ((View.whole main_v0_1).slice (win0_6.rect t)).set ↔ _
  rw [View.set_slice_whole, Rect.mem_set_unit]
  exact Iff.rfl

/-- Row `r` of the detection weights is written back by point `r / 1024`. -/
theorem weights_cover (i : S131072x20.Idx) :
    ∃ t : Fin cfg0.N, (cfg0.win 6).flush t = true ∧ i ∈ ((cfg0.win 6).blk t).view.set := by
  have hi0 : (i 0).val < 131072 := idx2_lt0 i
  have hi1 : (i 1).val < 20 := idx2_lt1 i
  have hN : cfg0.N = 128 := N_0
  let t : Fin cfg0.N := ⟨(i 0).val / 1024, by rw [hN]; omega⟩
  have ht : t.val = (i 0).val / 1024 := rfl
  obtain ⟨-, -, -, -, -, -, -, -, -, -, e0, e1⟩ := block_at t
  refine ⟨t, flush0_6 t, ?_⟩
  rw [mem_weights_block]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 20 ≤ (i 1).val ∧ (i 1).val < win0_6.index t (1 : Fin 2) * 20 + 20
    omega

/-- After the run the detection-weights array is the head of `x` against the detection weights and bias. -/
theorem weights_final (c : Dev nD) :
    (dats m 0 c).arrAt 6 cfg0.N = head (V m c main_arg0) (V m c main_arg3) (V m c main_arg4) :=
  (dats m 0 c).arrAt_eq_of_cover 6 (head (V m c main_arg0) (V m c main_arg3) (V m c main_arg4))
    (fun t _ => weights_flushed m c t) weights_cover

/-! ## The zeros -/

/-- The third result is no array of the kernel: the two host operations after it write it, a zero scalar
    broadcast to every entry, whatever the kernel left in its own arrays. -/
theorem deltas_tail (c : Dev nD) :
    Pipeline.afterTail₀ cfgs (dats m) 0 (V0 m) [hostOps1] c main_v1
      = broadcastInDim S131072x80 ![] bcast_S_S131072x80 (constant (F := Ideal) S_ .f32 0x00000000#32) := by
  unfold Pipeline.afterTail₀
  show StableHlo.after hostOps1 _ (Proc.devRef .tc main_v1) = _
  after_results

/-- The third result's buffer is unscoped and is none of the kernel's seven arrays. -/
theorem deltas_rest : main_v1 ∈ Pipeline.restRefs sig (cfgs 0).spec :=
  Pipeline.mem_restRefs_of main_v1 rfl (fun w => by fin_cases w <;> decide)

/-! ## The run, read -/

/-- Every execution of the program ends with the scores and the detection weights at the two heads of the
    arguments, the third result all zeros, and the five arguments unchanged. -/
theorem run : θ_run defs (onTc (τ := τ) (main (F := Ideal))) ⟨m, fun _ => 0, ρ⟩ fun r => ∀ c : Dev nD,
      r.2.mem ((c.tc : Thread nD τ).loc main_v0_0)
        = head (m ((c.tc : Thread nD τ).loc main_arg0)) (m ((c.tc : Thread nD τ).loc main_arg1)) (m ((c.tc : Thread nD τ).loc main_arg2))
      ∧ r.2.mem ((c.tc : Thread nD τ).loc main_v0_1)
        = head (m ((c.tc : Thread nD τ).loc main_arg0)) (m ((c.tc : Thread nD τ).loc main_arg3)) (m ((c.tc : Thread nD τ).loc main_arg4))
      ∧ r.2.mem ((c.tc : Thread nD τ).loc main_v1)
        = broadcastInDim S131072x80 ![] bcast_S_S131072x80 (constant (F := Ideal) S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).1 5).trans ((scores_final m c).trans (by rw [V_main_arg0, V_main_arg1, V_main_arg2])),
      ((h c).1 6).trans ((weights_final m c).trans (by rw [V_main_arg0, V_main_arg3, V_main_arg4])),
      ((h c).2 main_v1 deltas_rest).trans (deltas_tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Heads

end
-- ==== Proof.lean ====
/-
  The certificate: a pair of linear heads computed block by block equals the reference's two einsums.

  Both programs take a feature matrix `x` (131072 by 2048), two weight matrices (20 by 2048) with their biases
  (20 each), and return class scores, detection weights (each 131072 by 20) and an all-zero array (131072 by 80).
  On the extended reals each of the first two results is, at row `n` and class `k`,
      (∑ d, x[n, d] · w[k, d]) + b[k]
  (`LinearHead.head`). The reference computes it as one contraction over the feature axis plus a broadcast bias
  (`ReferenceIdeal.Heads`); the kernel computes it for 1024 rows at a time, as a product of the row block with the
  transposed weights into a zero accumulator plus the bias row, and its 128 row blocks tile the result
  (`KernelIdeal.Heads`). The two sides have the same summands in the same index set, so no property of the
  inputs beyond what the statement gives is used: the precondition is never opened. The third result is the same
  broadcast of the same zero word in both programs.

  The three frame claims: the kernel's, at both instances, are its generated frame; the reference has no kernel,
  and its frame is its generated run with the results dropped. The idealization rewrote nothing, so the
  idealization claim is `True`.
-/
import proofs.«101826_j40389872451670_1_alg».proof.Defs
import proofs.«101826_j40389872451670_1_alg».proof.Proof.Gen.Kernel
import proofs.«101826_j40389872451670_1_alg».proof.Proof.Gen.Kernel.Skeleton
import proofs.«101826_j40389872451670_1_alg».proof.Proof.Gen.Kernel.Launch
import proofs.«101826_j40389872451670_1_alg».proof.Proof.Gen.Kernel.Points
import proofs.«101826_j40389872451670_1_alg».proof.Proof.Gen.Kernel.Frame
import proofs.«101826_j40389872451670_1_alg».proof.Proof.Gen.KernelIdeal
import proofs.«101826_j40389872451670_1_alg».proof.Proof.Gen.KernelIdeal.Skeleton
import proofs.«101826_j40389872451670_1_alg».proof.Proof.Gen.KernelIdeal.Launch
import proofs.«101826_j40389872451670_1_alg».proof.Proof.Gen.KernelIdeal.Points
import proofs.«101826_j40389872451670_1_alg».proof.Proof.Gen.KernelIdeal.Frame
import proofs.«101826_j40389872451670_1_alg».proof.Proof.Gen.ReferenceIdeal
import proofs.«101826_j40389872451670_1_alg».proof.Proof.Gen.ReferenceIdeal.Run
import proofs.«101826_j40389872451670_1_alg».proof.Proof.Gen.ReferenceIdeal.Read
import proofs.«101826_j40389872451670_1_alg».proof.Proof.Gen.Pre_finite_inputs
import proofs.«101826_j40389872451670_1_alg».proof.Proof.LinearHead
import proofs.«101826_j40389872451670_1_alg».proof.Proof.ReferenceHeads
import proofs.«101826_j40389872451670_1_alg».proof.Proof.KernelHeads
import Idealize.ShloMosaic.Adequacy
import Idealize.ShloMosaic.Init

noncomputable section

namespace Cert.Proof

open Idealize.ShloMosaic Idealize.SL.Sem

/-- The kernel as printed terminates, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is ten host operations in a row: its run ends with the arguments unchanged. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- From arguments that agree, the kernel's three results and the reference's are the same arrays: the two
    heads of the arguments, and the zeros. -/
theorem algebraic : Cert.algebraic_KernelIdeal_ReferenceIdeal := by
  intro m ρ m' ρ' _ hagree
  refine ⟨_, _, _, Cert.KernelIdeal.Heads.run m ρ, ?_⟩
  refine (θ_run Cert.ReferenceIdeal.defs _ _).mono (fun _ h c => ?_)
    (Cert.ReferenceIdeal.Value.run (F := Ideal) m' ρ')
  obtain ⟨h3, h7, h8, hargs⟩ := h c
  obtain ⟨a0, a1, a2, a3, a4⟩ := hagree c
  refine ⟨h3.trans ?_, h7.trans ?_, h8, hargs⟩
  · rw [Cert.ReferenceIdeal.Read.val_main_v3_eq, Cert.ReferenceIdeal.Heads.scores_eq, a0, a1, a2]
  · rw [Cert.ReferenceIdeal.Read.val_main_v7_eq, Cert.ReferenceIdeal.Heads.weights_eq, a0, a3, a4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
